-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_arg10 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S3x2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x2x625000 : Shape := ⟨3, ![1, 2, 625000]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 116
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S3x2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x2x625000, .i32⟩
  | .hbm, ⟨12, _⟩ => ⟨S2x625000, .i32⟩
  | .hbm, ⟨13, _⟩ => ⟨S1x625000, .i32⟩
  | .hbm, ⟨14, _⟩ => ⟨S625000, .i32⟩
  | .hbm, ⟨15, _⟩ => ⟨S1x625000, .i32⟩
  | .hbm, ⟨16, _⟩ => ⟨S625000, .i32⟩
  | .hbm, ⟨17, _⟩ => ⟨S_, .i32⟩
  | .hbm, ⟨18, _⟩ => ⟨S625000, .i32⟩
  | .hbm, ⟨19, _⟩ => ⟨S625000, .i1⟩
  | .hbm, ⟨20, _⟩ => ⟨S_, .i32⟩
  | .hbm, ⟨21, _⟩ => ⟨S625000, .i32⟩
  | .hbm, ⟨22, _⟩ => ⟨S625000, .i32⟩
  | .hbm, ⟨23, _⟩ => ⟨S625000, .i32⟩
  | .hbm, ⟨24, _⟩ => ⟨S625000x1, .i32⟩
  | .hbm, ⟨25, _⟩ => ⟨S625000x128, .f32⟩
  | .hbm, ⟨26, _⟩ => ⟨S_, .f32⟩
  | .hbm, ⟨27, _⟩ => ⟨S100000x128, .f32⟩
  | .hbm, ⟨28, _⟩ => ⟨S625000x1, .i32⟩
  | .hbm, ⟨29, _⟩ => ⟨S100000x128, .f32⟩
  | .hbm, ⟨30, _⟩ => ⟨S_, .f32⟩
  | .hbm, ⟨31, _⟩ => ⟨S625000, .f32⟩
  | .hbm, ⟨32, _⟩ => ⟨S_, .f32⟩
  | .hbm, ⟨33, _⟩ => ⟨S100000, .f32⟩
  | .hbm, ⟨34, _⟩ => ⟨S625000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S1x2x625000, .i32⟩
  | .hbm, ⟨47, _⟩ => ⟨S2x625000, .i32⟩
  | .hbm, ⟨48, _⟩ => ⟨S1x625000, .i32⟩
  | .hbm, ⟨49, _⟩ => ⟨S625000, .i32⟩
  | .hbm, ⟨50, _⟩ => ⟨S1x625000, .i32⟩
  | .hbm, ⟨51, _⟩ => ⟨S625000, .i32⟩
  | .hbm, ⟨52, _⟩ => ⟨S_, .i32⟩
  | .hbm, ⟨53, _⟩ => ⟨S625000, .i32⟩
  | .hbm, ⟨54, _⟩ => ⟨S625000, .i1⟩
  | .hbm, ⟨55, _⟩ => ⟨S_, .i32⟩
  | .hbm, ⟨56, _⟩ => ⟨S625000, .i32⟩
  | .hbm, ⟨57, _⟩ => ⟨S625000, .i32⟩
  | .hbm, ⟨58, _⟩ => ⟨S625000, .i32⟩
  | .hbm, ⟨59, _⟩ => ⟨S625000x1, .i32⟩
  | .hbm, ⟨60, _⟩ => ⟨S625000x128, .f32⟩
  | .hbm, ⟨61, _⟩ => ⟨S_, .f32⟩
  | .hbm, ⟨62, _⟩ => ⟨S100000x128, .f32⟩
  | .hbm, ⟨63, _⟩ => ⟨S625000x1, .i32⟩
  | .hbm, ⟨64, _⟩ => ⟨S100000x128, .f32⟩
  | .hbm, ⟨65, _⟩ => ⟨S_, .f32⟩
  | .hbm, ⟨66, _⟩ => ⟨S625000, .f32⟩
  | .hbm, ⟨67, _⟩ => ⟨S_, .f32⟩
  | .hbm, ⟨68, _⟩ => ⟨S100000, .f32⟩
  | .hbm, ⟨69, _⟩ => ⟨S625000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S128x128, .f32⟩
  | .hbm, ⟨79, _⟩ => ⟨S1x128, .f32⟩
  | .hbm, ⟨80, _⟩ => ⟨S100000x128, .f32⟩
  | .hbm, ⟨81, _⟩ => ⟨S1x2x625000, .i32⟩
  | .hbm, ⟨82, _⟩ => ⟨S2x625000, .i32⟩
  | .hbm, ⟨83, _⟩ => ⟨S1x625000, .i32⟩
  | .hbm, ⟨84, _⟩ => ⟨S625000, .i32⟩
  | .hbm, ⟨85, _⟩ => ⟨S1x625000, .i32⟩
  | .hbm, ⟨86, _⟩ => ⟨S625000, .i32⟩
  | .hbm, ⟨87, _⟩ => ⟨S_, .i32⟩
  | .hbm, ⟨88, _⟩ => ⟨S625000, .i32⟩
  | .hbm, ⟨89, _⟩ => ⟨S625000, .i1⟩
  | .hbm, ⟨90, _⟩ => ⟨S_, .i32⟩
  | .hbm, ⟨91, _⟩ => ⟨S625000, .i32⟩
  | .hbm, ⟨92, _⟩ => ⟨S625000, .i32⟩
  | .hbm, ⟨93, _⟩ => ⟨S625000, .i32⟩
  | .hbm, ⟨94, _⟩ => ⟨S625000x1, .i32⟩
  | .hbm, ⟨95, _⟩ => ⟨S625000x128, .f32⟩
  | .hbm, ⟨96, _⟩ => ⟨S_, .f32⟩
  | .hbm, ⟨97, _⟩ => ⟨S100000x128, .f32⟩
  | .hbm, ⟨98, _⟩ => ⟨S625000x1, .i32⟩
  | .hbm, ⟨99, _⟩ => ⟨S100000x128, .f32⟩
  | .hbm, ⟨100, _⟩ => ⟨S_, .f32⟩
  | .hbm, ⟨101, _⟩ => ⟨S625000, .f32⟩
  | .hbm, ⟨102, _⟩ => ⟨S_, .f32⟩
  | .hbm, ⟨103, _⟩ => ⟨S100000, .f32⟩
  | .hbm, ⟨104, _⟩ => ⟨S625000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S128x64, .f32⟩
  | .hbm, ⟨114, _⟩ => ⟨S1x64, .f32⟩
  | .hbm, ⟨115, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S3x2x625000_S1x2x625000_0_0_0 : S3x2x625000.Slices ![0, 0, 0] S1x2x625000
  shapeCasts_S1x2x625000_S2x625000 : S1x2x625000.ShapeCasts S2x625000
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x625000_S1x2x625000_1_0_0 : S3x2x625000.Slices ![1, 0, 0] S1x2x625000
  slices_S3x2x625000_S1x2x625000_2_0_0 : S3x2x625000.Slices ![2, 0, 0] S1x2x625000
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v82) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v83) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x2x625000 : Shape := ⟨3, ![1, 2, 625000]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S3x2x625000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S1x2x625000, .i32⟩
  | 12 => ⟨S2x625000, .i32⟩
  | 13 => ⟨S1x625000, .i32⟩
  | 14 => ⟨S625000, .i32⟩
  | 15 => ⟨S1x625000, .i32⟩
  | 16 => ⟨S625000, .i32⟩
  | 17 => ⟨S_, .i32⟩
  | 18 => ⟨S625000, .i32⟩
  | 19 => ⟨S625000, .i1⟩
  | 20 => ⟨S_, .i32⟩
  | 21 => ⟨S625000, .i32⟩
  | 22 => ⟨S625000, .i32⟩
  | 23 => ⟨S625000, .i32⟩
  | 24 => ⟨S625000x1, .i32⟩
  | 25 => ⟨S625000x128, .f32⟩
  | 26 => ⟨S_, .f32⟩
  | 27 => ⟨S100000x128, .f32⟩
  | 28 => ⟨S625000x1, .i32⟩
  | 29 => ⟨S100000x128, .f32⟩
  | 30 => ⟨S_, .f32⟩
  | 31 => ⟨S625000, .f32⟩
  | 32 => ⟨S_, .f32⟩
  | 33 => ⟨S100000, .f32⟩
  | 34 => ⟨S625000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x2x625000, .i32⟩
  | 54 => ⟨S2x625000, .i32⟩
  | 55 => ⟨S1x625000, .i32⟩
  | 56 => ⟨S625000, .i32⟩
  | 57 => ⟨S1x625000, .i32⟩
  | 58 => ⟨S625000, .i32⟩
  | 59 => ⟨S_, .i32⟩
  | 60 => ⟨S625000, .i32⟩
  | 61 => ⟨S625000, .i1⟩
  | 62 => ⟨S_, .i32⟩
  | 63 => ⟨S625000, .i32⟩
  | 64 => ⟨S625000, .i32⟩
  | 65 => ⟨S625000, .i32⟩
  | 66 => ⟨S625000x1, .i32⟩
  | 67 => ⟨S625000x128, .f32⟩
  | 68 => ⟨S_, .f32⟩
  | 69 => ⟨S100000x128, .f32⟩
  | 70 => ⟨S625000x1, .i32⟩
  | 71 => ⟨S100000x128, .f32⟩
  | 72 => ⟨S_, .f32⟩
  | 73 => ⟨S625000, .f32⟩
  | 74 => ⟨S_, .f32⟩
  | 75 => ⟨S100000, .f32⟩
  | 76 => ⟨S625000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S128x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S1x2x625000, .i32⟩
  | 96 => ⟨S2x625000, .i32⟩
  | 97 => ⟨S1x625000, .i32⟩
  | 98 => ⟨S625000, .i32⟩
  | 99 => ⟨S1x625000, .i32⟩
  | 100 => ⟨S625000, .i32⟩
  | 101 => ⟨S_, .i32⟩
  | 102 => ⟨S625000, .i32⟩
  | 103 => ⟨S625000, .i1⟩
  | 104 => ⟨S_, .i32⟩
  | 105 => ⟨S625000, .i32⟩
  | 106 => ⟨S625000, .i32⟩
  | 107 => ⟨S625000, .i32⟩
  | 108 => ⟨S625000x1, .i32⟩
  | 109 => ⟨S625000x128, .f32⟩
  | 110 => ⟨S_, .f32⟩
  | 111 => ⟨S100000x128, .f32⟩
  | 112 => ⟨S625000x1, .i32⟩
  | 113 => ⟨S100000x128, .f32⟩
  | 114 => ⟨S_, .f32⟩
  | 115 => ⟨S625000, .f32⟩
  | 116 => ⟨S_, .f32⟩
  | 117 => ⟨S100000, .f32⟩
  | 118 => ⟨S625000x1, .i32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x128, .f32⟩
  | 125 => ⟨S100000x128, .f32⟩
  | 126 => ⟨S128x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S128x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_10 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]

class Facts₀ : Prop where
  slices_S3x2x625000_S1x2x625000_0_0_0 : S3x2x625000.Slices ![0, 0, 0] S1x2x625000
  shapeCasts_S1x2x625000_S2x625000 : S1x2x625000.ShapeCasts S2x625000
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x625000_S1x2x625000_1_0_0 : S3x2x625000.Slices ![1, 0, 0] S1x2x625000
  slices_S3x2x625000_S1x2x625000_2_0_0 : S3x2x625000.Slices ![2, 0, 0] S1x2x625000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Agg.lean ====
/-
  The mean over incoming edges.

  An edge list holds a row of source nodes and a row of destination nodes. For every edge the source node's feature
  row is fetched (a negative source index is first moved up by the number of nodes), the fetched rows are summed
  into their destination nodes starting from zero, the number of edges into each node is summed the same way from
  ones, and every node's sum is divided by its count, the count raised to one where it is smaller. Both programs
  apply this chain of operations to the same values, so it is carried as one function and never opened.
-/
import proofs.«121698_j35639638622842_1_alg».proof.Proof.Gen.KernelIdeal

noncomputable section

namespace Cert.Sage

open Idealize.ShloMosaic Cert.KernelIdeal Cert.KernelIdeal.Gen

variable {F : FTy → Type} [FloatOps F]

/-- The destination row of a layer's edge list, as a column of scatter indices. -/
def dstCol (e1 : IVec S1x2x625000 32) : IVec S625000x1 32 :=
  broadcastInDim S625000x1 ![0] bcast_S625000_S625000x1_0
    (shapeCast S625000 (extractStridedSlice S1x625000 ![1, 0] (shapeCast S2x625000 e1 shapeCasts_S1x2x625000_S2x625000)
      slices_S2x625000_S1x625000_1_0) shapeCasts_S1x625000_S625000)

/-- The source row of a layer's edge list. -/
def srcRow (e1 : IVec S1x2x625000 32) : IVec S625000 32 :=
  shapeCast S625000 (extractStridedSlice S1x625000 ![0, 0] (shapeCast S2x625000 e1 shapeCasts_S1x2x625000_S2x625000)
    slices_S2x625000_S1x625000_0_0) shapeCasts_S1x625000_S625000

/-- The mean of the feature rows `h` over each node's incoming edges, for the layer's edge list `e1`. -/
def agg (h : Vec F S100000x128 .f32) (e1 : IVec S1x2x625000 32) : Vec F S100000x128 .f32 :=
  Host.divf
    (Host.scatterAdd scatter_S100000x128_S625000x1_S625000x128_1_0_0_1
      (broadcastInDim S100000x128 ![] bcast_S_S100000x128 (constant S_ .f32 0x00000000#32))
      (dstCol e1)
      (Host.gather gather_S100000x128_S625000x1_S625000x128_1_0_n_n_0_1_1128 h
        (broadcastInDim S625000x1 ![0] bcast_S625000_S625000x1_0
          (select (cmpi .slt (srcRow e1) (broadcastInDim S625000 ![] bcast_S_S625000 (constantI S_ 32 0#32)))
            (addi (srcRow e1) (broadcastInDim S625000 ![] bcast_S_S625000 (constantI S_ 32 100000#32)))
            (srcRow e1)))))
    (broadcastInDim S100000x128 ![0, 1] bcast_S100000x1_S100000x128_0_1
      (broadcastInDim S100000x1 ![0] bcast_S100000_S100000x1_0
        (maximumf
          (Host.scatterAdd scatter_S100000_S625000x1_S625000_n_0_0_1
            (broadcastInDim S100000 ![] bcast_S_S100000 (constant S_ .f32 0x00000000#32))
            (dstCol e1)
            (broadcastInDim S625000 ![] bcast_S_S625000 (constant S_ .f32 0x3F800000#32)))
          (broadcastInDim S100000 ![] bcast_S_S100000 (constant S_ .f32 0x3F800000#32)))))

/-- Layer `l`'s edge list cut out of the stack of three. -/
def edges0 (e : IVec S3x2x625000 32) : IVec S1x2x625000 32 := extractStridedSlice S1x2x625000 ![0, 0, 0] e slices_S3x2x625000_S1x2x625000_0_0_0
def edges1 (e : IVec S3x2x625000 32) : IVec S1x2x625000 32 := extractStridedSlice S1x2x625000 ![1, 0, 0] e slices_S3x2x625000_S1x2x625000_1_0_0
def edges2 (e : IVec S3x2x625000 32) : IVec S1x2x625000 32 := extractStridedSlice S1x2x625000 ![2, 0, 0] e slices_S3x2x625000_S1x2x625000_2_0_0

end Cert.Sage

end
-- ==== Proof.KHost.lean ====
/-
  What each region finds in its operand arrays when it is entered: the host operations before it, read back. The
  mean over incoming edges is one function of the features and the layer's edge list (Agg.lean); the weights arrive
  transposed, the bias as one row; the arguments stay as launched across host stretches and regions.
-/
import proofs.«121698_j35639638622842_1_alg».proof.Proof.Gen.KernelIdeal.Frame
import proofs.«121698_j35639638622842_1_alg».proof.Proof.Agg
import Idealize.ShloMosaic.Lib.StableHlo.Run

set_option maxRecDepth 16384

noncomputable section

namespace Cert.Sage.KHost

open Cert.KernelIdeal Cert.KernelIdeal.Gen Cert.Sage
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

set_option maxHeartbeats 8000000 in
/-- Region 0's first operand is the mean over incoming edges of the input features. -/
theorem V1_mean (c : Dev nD) : (V1 m ρ c main_v24 : S100000x128.Idx → Elt F .f32)
    = agg (m ((c : Thread nD τ).loc main_arg0)) (edges0 (m ((c : Thread nD τ).loc main_arg1))) := by
  show StableHlo.after hostOps0 (W0 m ρ c) (Proc.devRef .tc main_v24) = _
  after_results_simp <;> rfl
set_option maxHeartbeats 8000000 in
/-- Region 0's second operand is the input features. -/
theorem V1_self (c : Dev nD) : (V1 m ρ c main_arg0 : S100000x128.Idx → Elt F .f32)
    = (m ((c : Thread nD τ).loc main_arg0)) := by
  show StableHlo.after hostOps0 (W0 m ρ c) (Proc.devRef .tc main_arg0) = _
  after_results_simp <;> rfl
set_option maxHeartbeats 8000000 in
/-- Region 0's third operand is the transposed neighbour weights. -/
theorem V1_wl (c : Dev nD) : (V1 m ρ c main_v25 : S128x128.Idx → Elt F .f32)
    = transpose S128x128 [1, 0] (m ((c : Thread nD τ).loc main_arg2)) transposes_S128x128_S128x128_1_0 := by
  show StableHlo.after hostOps0 (W0 m ρ c) (Proc.devRef .tc main_v25) = _
  after_results_simp <;> rfl
set_option maxHeartbeats 8000000 in
/-- Region 0's fourth operand is the transposed self weights. -/
theorem V1_wr (c : Dev nD) : (V1 m ρ c main_v26 : S128x128.Idx → Elt F .f32)
    = transpose S128x128 [1, 0] (m ((c : Thread nD τ).loc main_arg4)) transposes_S128x128_S128x128_1_0 := by
  show StableHlo.after hostOps0 (W0 m ρ c) (Proc.devRef .tc main_v26) = _
  after_results_simp <;> rfl
set_option maxHeartbeats 8000000 in
/-- Region 0's fifth operand is the bias as one row. -/
theorem V1_b (c : Dev nD) : (V1 m ρ c main_v27 : S1x128.Idx → Elt F .f32)
    = shapeCast S1x128 (m ((c : Thread nD τ).loc main_arg3)) shapeCasts_S128_S1x128 := by
  show StableHlo.after hostOps0 (W0 m ρ c) (Proc.devRef .tc main_v27) = _
  after_results_simp <;> rfl
set_option maxHeartbeats 8000000 in
/-- Region 1's first operand is the mean over incoming edges of region 0's result. -/
theorem V3_mean (c : Dev nD) : (V3 m ρ c main_v53 : S100000x128.Idx → Elt F .f32)
    = agg (W2 m ρ c (Proc.devRef .tc main_v28)) (edges1 (W2 m ρ c (Proc.devRef .tc main_arg1))) := by
  show StableHlo.after hostOps1 (W2 m ρ c) (Proc.devRef .tc main_v53) = _
  after_results_simp <;> rfl
set_option maxHeartbeats 8000000 in
/-- Region 1's second operand is region 0's result. -/
theorem V3_self (c : Dev nD) : (V3 m ρ c main_v28 : S100000x128.Idx → Elt F .f32)
    = (W2 m ρ c (Proc.devRef .tc main_v28)) := by
  show StableHlo.after hostOps1 (W2 m ρ c) (Proc.devRef .tc main_v28) = _
  after_results_simp <;> rfl
set_option maxHeartbeats 8000000 in
/-- Region 1's third operand is the transposed neighbour weights. -/
theorem V3_wl (c : Dev nD) : (V3 m ρ c main_v54 : S128x128.Idx → Elt F .f32)
    = transpose S128x128 [1, 0] (W2 m ρ c (Proc.devRef .tc main_arg5)) transposes_S128x128_S128x128_1_0 := by
  show StableHlo.after hostOps1 (W2 m ρ c) (Proc.devRef .tc main_v54) = _
  after_results_simp <;> rfl
set_option maxHeartbeats 8000000 in
/-- Region 1's fourth operand is the transposed self weights. -/
theorem V3_wr (c : Dev nD) : (V3 m ρ c main_v55 : S128x128.Idx → Elt F .f32)
    = transpose S128x128 [1, 0] (W2 m ρ c (Proc.devRef .tc main_arg7)) transposes_S128x128_S128x128_1_0 := by
  show StableHlo.after hostOps1 (W2 m ρ c) (Proc.devRef .tc main_v55) = _
  after_results_simp <;> rfl
set_option maxHeartbeats 8000000 in
/-- Region 1's fifth operand is the bias as one row. -/
theorem V3_b (c : Dev nD) : (V3 m ρ c main_v56 : S1x128.Idx → Elt F .f32)
    = shapeCast S1x128 (W2 m ρ c (Proc.devRef .tc main_arg6)) shapeCasts_S128_S1x128 := by
  show StableHlo.after hostOps1 (W2 m ρ c) (Proc.devRef .tc main_v56) = _
  after_results_simp <;> rfl
set_option maxHeartbeats 8000000 in
/-- Region 2's first operand is the mean over incoming edges of region 1's result. -/
theorem V5_mean (c : Dev nD) : (V5 m ρ c main_v82 : S100000x128.Idx → Elt F .f32)
    = agg (W4 m ρ c (Proc.devRef .tc main_v57)) (edges2 (W4 m ρ c (Proc.devRef .tc main_arg1))) := by
  show StableHlo.after hostOps2 (W4 m ρ c) (Proc.devRef .tc main_v82) = _
  after_results_simp <;> rfl
set_option maxHeartbeats 8000000 in
/-- Region 2's second operand is region 1's result. -/
theorem V5_self (c : Dev nD) : (V5 m ρ c main_v57 : S100000x128.Idx → Elt F .f32)
    = (W4 m ρ c (Proc.devRef .tc main_v57)) := by
  show StableHlo.after hostOps2 (W4 m ρ c) (Proc.devRef .tc main_v57) = _
  after_results_simp <;> rfl
set_option maxHeartbeats 8000000 in
/-- Region 2's third operand is the transposed neighbour weights. -/
theorem V5_wl (c : Dev nD) : (V5 m ρ c main_v83 : S128x64.Idx → Elt F .f32)
    = transpose S128x64 [1, 0] (W4 m ρ c (Proc.devRef .tc main_arg8)) transposes_S64x128_S128x64_1_0 := by
  show StableHlo.after hostOps2 (W4 m ρ c) (Proc.devRef .tc main_v83) = _
  after_results_simp <;> rfl
set_option maxHeartbeats 8000000 in
/-- Region 2's fourth operand is the transposed self weights. -/
theorem V5_wr (c : Dev nD) : (V5 m ρ c main_v84 : S128x64.Idx → Elt F .f32)
    = transpose S128x64 [1, 0] (W4 m ρ c (Proc.devRef .tc main_arg10)) transposes_S64x128_S128x64_1_0 := by
  show StableHlo.after hostOps2 (W4 m ρ c) (Proc.devRef .tc main_v84) = _
  after_results_simp <;> rfl
set_option maxHeartbeats 8000000 in
/-- Region 2's fifth operand is the bias as one row. -/
theorem V5_b (c : Dev nD) : (V5 m ρ c main_v85 : S1x64.Idx → Elt F .f32)
    = shapeCast S1x64 (W4 m ρ c (Proc.devRef .tc main_arg9)) shapeCasts_S64_S1x64 := by
  show StableHlo.after hostOps2 (W4 m ρ c) (Proc.devRef .tc main_v85) = _
  after_results_simp <;> rfl
set_option maxHeartbeats 8000000 in
/-- The host operations before region 0 leave argument 1 as launched. -/
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
/-- Region 0 leaves argument 1 as launched. -/
theorem W2_arg1 (c : Dev nD) : W2 m ρ c (Proc.devRef .tc main_arg1) = m ((c : Thread nD τ).loc main_arg1) :=
  (W2_of_ne m ρ c main_arg1 (by decide)).trans (W1_arg1 m ρ c)
set_option maxHeartbeats 8000000 in
/-- The host operations before region 0 leave argument 5 as launched. -/
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
/-- Region 0 leaves argument 5 as launched. -/
theorem W2_arg5 (c : Dev nD) : W2 m ρ c (Proc.devRef .tc main_arg5) = m ((c : Thread nD τ).loc main_arg5) :=
  (W2_of_ne m ρ c main_arg5 (by decide)).trans (W1_arg5 m ρ c)
set_option maxHeartbeats 8000000 in
/-- The host operations before region 0 leave argument 6 as launched. -/
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
/-- Region 0 leaves argument 6 as launched. -/
theorem W2_arg6 (c : Dev nD) : W2 m ρ c (Proc.devRef .tc main_arg6) = m ((c : Thread nD τ).loc main_arg6) :=
  (W2_of_ne m ρ c main_arg6 (by decide)).trans (W1_arg6 m ρ c)
set_option maxHeartbeats 8000000 in
/-- The host operations before region 0 leave argument 7 as launched. -/
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
/-- Region 0 leaves argument 7 as launched. -/
theorem W2_arg7 (c : Dev nD) : W2 m ρ c (Proc.devRef .tc main_arg7) = m ((c : Thread nD τ).loc main_arg7) :=
  (W2_of_ne m ρ c main_arg7 (by decide)).trans (W1_arg7 m ρ c)
set_option maxHeartbeats 8000000 in
/-- The host operations before region 0 leave argument 8 as launched. -/
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
/-- Region 0 leaves argument 8 as launched. -/
theorem W2_arg8 (c : Dev nD) : W2 m ρ c (Proc.devRef .tc main_arg8) = m ((c : Thread nD τ).loc main_arg8) :=
  (W2_of_ne m ρ c main_arg8 (by decide)).trans (W1_arg8 m ρ c)
set_option maxHeartbeats 8000000 in
/-- The host operations before region 0 leave argument 9 as launched. -/
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
/-- Region 0 leaves argument 9 as launched. -/
theorem W2_arg9 (c : Dev nD) : W2 m ρ c (Proc.devRef .tc main_arg9) = m ((c : Thread nD τ).loc main_arg9) :=
  (W2_of_ne m ρ c main_arg9 (by decide)).trans (W1_arg9 m ρ c)
set_option maxHeartbeats 8000000 in
/-- The host operations before region 0 leave argument 10 as launched. -/
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
/-- Region 0 leaves argument 10 as launched. -/
theorem W2_arg10 (c : Dev nD) : W2 m ρ c (Proc.devRef .tc main_arg10) = m ((c : Thread nD τ).loc main_arg10) :=
  (W2_of_ne m ρ c main_arg10 (by decide)).trans (W1_arg10 m ρ c)
set_option maxHeartbeats 8000000 in
/-- The host operations before region 1 leave argument 1 as launched. -/
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  after_results_simp
/-- Region 1 leaves argument 1 as launched. -/
theorem W4_arg1 (c : Dev nD) : W4 m ρ c (Proc.devRef .tc main_arg1) = m ((c : Thread nD τ).loc main_arg1) :=
  (W4_of_ne m ρ c main_arg1 (by decide)).trans (W3_arg1 m ρ c)
set_option maxHeartbeats 8000000 in
/-- The host operations before region 1 leave argument 8 as launched. -/
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  after_results_simp
/-- Region 1 leaves argument 8 as launched. -/
theorem W4_arg8 (c : Dev nD) : W4 m ρ c (Proc.devRef .tc main_arg8) = m ((c : Thread nD τ).loc main_arg8) :=
  (W4_of_ne m ρ c main_arg8 (by decide)).trans (W3_arg8 m ρ c)
set_option maxHeartbeats 8000000 in
/-- The host operations before region 1 leave argument 9 as launched. -/
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = _
  after_results_simp
/-- Region 1 leaves argument 9 as launched. -/
theorem W4_arg9 (c : Dev nD) : W4 m ρ c (Proc.devRef .tc main_arg9) = m ((c : Thread nD τ).loc main_arg9) :=
  (W4_of_ne m ρ c main_arg9 (by decide)).trans (W3_arg9 m ρ c)
set_option maxHeartbeats 8000000 in
/-- The host operations before region 1 leave argument 10 as launched. -/
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = _
  after_results_simp
/-- Region 1 leaves argument 10 as launched. -/
theorem W4_arg10 (c : Dev nD) : W4 m ρ c (Proc.devRef .tc main_arg10) = m ((c : Thread nD τ).loc main_arg10) :=
  (W4_of_ne m ρ c main_arg10 (by decide)).trans (W3_arg10 m ρ c)

/-- Region 0's result array after the region. -/
theorem W2_out (c : Dev nD) : W2 m ρ c (Proc.devRef .tc main_v28) = (dat0 (V1 m ρ) c).arrAt 5 cfg0.N := W2_arr m ρ c 5
/-- Region 1's result array after the region. -/
theorem W4_out (c : Dev nD) : W4 m ρ c (Proc.devRef .tc main_v57) = (dat1 (V3 m ρ) c).arrAt 5 cfg1.N := W4_arr m ρ c 5
/-- Region 2's result array after the region. -/
theorem W6_out (c : Dev nD) : W6 m ρ c (Proc.devRef .tc main_v86) = (dat2 (V5 m ρ) c).arrAt 5 cfg2.N := W6_arr m ρ c 5

end Cert.Sage.KHost

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Dense.lean ====
/-
  The dense step of one graph-convolution layer, over the extended reals.

  At output (r, q) a layer adds two matrix products and a bias row,
      sum over k of mean (r, k) * Wl (q, k)  +  sum over k of h (r, k) * Wr (q, k)  +  b q,
  and applies an activation on top (the positive part, or nothing for the last layer). The weights are read
  transposed, so no transposed copy of them appears in the formula.

  Two programs compute it. One multiplies blocks of rows by the transposed weights, adds the two products first and
  the bias row last. The other adds the bias to the first product and the second product last. Addition of extended
  reals is commutative and associative, so the two agree with no side condition.
-/
import Idealize.ShloMosaic.PureOps.Ideal.Laws
import Idealize.ShloMosaic.Lib.ValueIdx
import Idealize.ShloMosaic.Lib.Pipeline.Value
import proofs.«121698_j35639638622842_1_alg».proof.Proof.LibMatmul

noncomputable section

namespace Cert.Sage

open Idealize.ShloMosaic Idealize.ShloMosaic.ValueIdx

variable {M K N : Nat}

/-- The positive part. -/
def relu (x : EReal) : EReal := max x 0

/-- One layer's dense step as a whole-array function of the aggregated neighbours `mean`, the nodes' own
    features `h`, the two weight matrices (rows indexed by output feature) and the bias. -/
def dense (act : EReal → EReal) (mean h : FVec Ideal ⟨2, ![M, K]⟩ .f32) (Wl Wr : FVec Ideal ⟨2, ![N, K]⟩ .f32)
    (b : FVec Ideal ⟨1, ![N]⟩ .f32) : FVec Ideal ⟨2, ![M, N]⟩ .f32 :=
  fun i => act ((∑ k : Fin K, mean (ix2 (n0 := M) (i 0) k) * Wl (ix2 (n0 := N) (i 1) k)
      + ∑ k : Fin K, h (ix2 (n0 := M) (i 0) k) * Wr (ix2 (n0 := N) (i 1) k)) + b (ix1 (n := N) (i 1)))

/-- The dense step at explicit coordinates. -/
theorem dense_apply (act : EReal → EReal) (mean h : FVec Ideal ⟨2, ![M, K]⟩ .f32) (Wl Wr : FVec Ideal ⟨2, ![N, K]⟩ .f32)
    (b : FVec Ideal ⟨1, ![N]⟩ .f32) (p : Fin M) (q : Fin N) :
    dense act mean h Wl Wr b (ix2 p q)
      = act ((∑ k : Fin K, mean (ix2 p k) * Wl (ix2 q k) + ∑ k : Fin K, h (ix2 p k) * Wr (ix2 q k)) + b (ix1 q)) := rfl

/-- A block of rows times the transposed weights, twice, the two products added, then the bias row broadcast down
    the rows: at (p, q) it is the two sums over k plus the bias row's entry q. The narrowing of the operands before
    the products changes nothing over the extended reals. -/
theorem block_apply (d : DotDims ⟨2, ![M, K]⟩ ⟨2, ![K, N]⟩ ⟨2, ![M, N]⟩) (hd : d = DotDims.plain M K N)
    (x0 x1 : FVec Ideal ⟨2, ![M, K]⟩ .f32) (x2 x3 : FVec Ideal ⟨2, ![K, N]⟩ .f32) (x4 : FVec Ideal ⟨2, ![1, N]⟩ .f32)
    (hb : (⟨2, ![1, N]⟩ : Shape).Broadcasts ⟨2, ![M, N]⟩) (h16 : FTy.bits .bf16 < FTy.bits .f32) (p : Fin M) (q : Fin N) :
    addf (addf (matmul d none (truncf .bf16 x0 h16) (truncf .bf16 x2 h16) (constant ⟨2, ![M, N]⟩ .f32 0x00000000#32))
              (matmul d none (truncf .bf16 x1 h16) (truncf .bf16 x3 h16) (constant ⟨2, ![M, N]⟩ .f32 0x00000000#32)))
        (broadcastTo ⟨2, ![M, N]⟩ x4 hb) (ix2 p q)
      = (∑ k : Fin K, x0 (ix2 p k) * x2 (ix2 k q) + ∑ k : Fin K, x1 (ix2 p k) * x3 (ix2 k q)) + x4 (ix2 (0 : Fin 1) q) := by
  subst hd
  rw [addf_apply, addf_apply]
  rw [show matmul (DotDims.plain M K N) none (truncf .bf16 x0 h16) (truncf .bf16 x2 h16) (constant ⟨2, ![M, N]⟩ .f32 0x00000000#32) (ix2 p q)
        = ∑ k : Fin K, x0 (ix2 p k) * x2 (ix2 k q) from Cert.Matmul.matmul_plain_apply none _ _ p q]
  rw [show matmul (DotDims.plain M K N) none (truncf .bf16 x1 h16) (truncf .bf16 x3 h16) (constant ⟨2, ![M, N]⟩ .f32 0x00000000#32) (ix2 p q)
        = ∑ k : Fin K, x1 (ix2 p k) * x3 (ix2 k q) from Cert.Matmul.matmul_plain_apply none _ _ p q]
  rw [broadcastTo_apply x4 hb (ix2 p q) (ix2 (0 : Fin 1) q) (fun a => by
    match a with
    | ⟨0, _⟩ => rfl
    | ⟨1, _⟩ =>
      show q.val = if N = 1 then 0 else q.val
      split
      · have := q.isLt; omega
      · rfl)]

/-- The same step written over the transposed weights (rows indexed by input feature) and the bias as a one-row
    matrix: the form in which a block of rows is multiplied. -/
def denseT (act : EReal → EReal) (mean h : FVec Ideal ⟨2, ![M, K]⟩ .f32) (WlT WrT : FVec Ideal ⟨2, ![K, N]⟩ .f32)
    (b2 : FVec Ideal ⟨2, ![1, N]⟩ .f32) : FVec Ideal ⟨2, ![M, N]⟩ .f32 :=
  fun i => act ((∑ k : Fin K, mean (ix2 (n0 := M) (i 0) k) * WlT (ix2 (n1 := N) k (i 1))
      + ∑ k : Fin K, h (ix2 (n0 := M) (i 0) k) * WrT (ix2 (n1 := N) k (i 1))) + b2 (ix2 (0 : Fin 1) (n1 := N) (i 1)))

/-- At explicit coordinates. -/
theorem denseT_apply (act : EReal → EReal) (mean h : FVec Ideal ⟨2, ![M, K]⟩ .f32) (WlT WrT : FVec Ideal ⟨2, ![K, N]⟩ .f32)
    (b2 : FVec Ideal ⟨2, ![1, N]⟩ .f32) (p : Fin M) (q : Fin N) :
    denseT act mean h WlT WrT b2 (ix2 p q)
      = act ((∑ k : Fin K, mean (ix2 p k) * WlT (ix2 k q) + ∑ k : Fin K, h (ix2 p k) * WrT (ix2 k q)) + b2 (ix2 (0 : Fin 1) q)) := rfl

/-- A transposed matrix at (k, q) is the matrix at (q, k). -/
theorem transpose_ix2 (W : FVec Ideal ⟨2, ![N, K]⟩ .f32) (hT : (⟨2, ![N, K]⟩ : Shape).Transposes [1, 0] ⟨2, ![K, N]⟩)
    (k : Fin K) (q : Fin N) : transpose ⟨2, ![K, N]⟩ [1, 0] W hT (ix2 k q) = W (ix2 q k) :=
  transpose_apply [1, 0] W hT (ix2 k q) (ix2 q k) fun b => by
    match b with
    | ⟨0, _⟩ => rfl
    | ⟨1, _⟩ => rfl

/-- A vector recast as a one-row matrix, at (0, q), is the vector at q. -/
theorem reshape_row_ix2 (b : FVec Ideal ⟨1, ![N]⟩ .f32) (hS : (⟨1, ![N]⟩ : Shape).ShapeCasts ⟨2, ![1, N]⟩) (q : Fin N) :
    shapeCast ⟨2, ![1, N]⟩ b hS (ix2 (0 : Fin 1) q) = b (ix1 q) :=
  shapeCast_apply b hS (ix2 (0 : Fin 1) q) (ix1 q) (by
    rw [Shape.rowMajor_val_one, Shape.rowMajor_val_two]
    show q.val = (0 : Fin 1).val * _ + q.val
    simp)

/-- Over the transposes of the weights and the bias recast as a row, the block form is the dense step. -/
theorem denseT_transpose (act : EReal → EReal) (mean h : FVec Ideal ⟨2, ![M, K]⟩ .f32) (Wl Wr : FVec Ideal ⟨2, ![N, K]⟩ .f32)
    (b : FVec Ideal ⟨1, ![N]⟩ .f32) (hT : (⟨2, ![N, K]⟩ : Shape).Transposes [1, 0] ⟨2, ![K, N]⟩)
    (hS : (⟨1, ![N]⟩ : Shape).ShapeCasts ⟨2, ![1, N]⟩) :
    denseT act mean h (transpose ⟨2, ![K, N]⟩ [1, 0] Wl hT) (transpose ⟨2, ![K, N]⟩ [1, 0] Wr hT) (shapeCast ⟨2, ![1, N]⟩ b hS)
      = dense act mean h Wl Wr b := by
  funext i
  obtain ⟨p, q, rfl⟩ : ∃ (p : Fin M) (q : Fin N), i = ix2 p q := ⟨i 0, i 1, eq_ix2 i⟩
  rw [denseT_apply, dense_apply, reshape_row_ix2]
  refine congrArg act (congrArg₂ (· + ·) (congrArg₂ (· + ·) (Finset.sum_congr rfl fun k _ => ?_)
    (Finset.sum_congr rfl fun k _ => ?_)) rfl)
  · exact congrArg (mean (ix2 p k) * ·) (transpose_ix2 Wl hT k q)
  · exact congrArg (h (ix2 p k) * ·) (transpose_ix2 Wr hT k q)

/-- Adding the bias before the second product or after it is the same. -/
theorem add_bias_comm (A B C : EReal) : (A + B) + C = (A + C) + B := add_right_comm A B C

end Cert.Sage

end
-- ==== Proof.KRegion0.lean ====
/-
  Region 0: what its result array holds when it ends, as one function of the arrays it is entered with.

  The grid has 20 points. Point t reads rows 5000 t .. 5000 t + 4999 of the two feature arrays and the whole of
  the two transposed weight matrices and of the bias row, and writes back the same rows of the result: the two
  blocks of rows times the weights, added, plus the bias row, positive part. A row of the result depends only on the same row
  of the two feature arrays, so every block is the block of ONE whole-array function, and the 20 blocks tile the rows.
-/
import proofs.«121698_j35639638622842_1_alg».proof.Proof.Gen.KernelIdeal.Frame
import proofs.«121698_j35639638622842_1_alg».proof.Proof.Dense
import Idealize.ShloMosaic.Lib.Pipeline.Value

set_option maxRecDepth 16384

noncomputable section

namespace Cert.Sage.KRegion0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block the body stores, at (p, q): the two products of the blocks of rows with the transposed weights, added,
    plus the bias row's entry, positive part. -/
theorem pay_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q) = relu ((∑ k : Fin 128, x0 (ix2 p k) * x2 (ix2 k q) + ∑ k : Fin 128, x1 (ix2 p k) * x3 (ix2 k q)) + x4 (ix2 (0 : Fin 1) q)) := by
  unfold k0_pay1
  simp only [shapeCast_self]
  show max _ (Ideal.ofBits .f32 0x00000000#32) = _
  rw [Ideal.ofBits_zero_f32]
  exact congrArg (max · 0) (block_apply _ rfl x0 x1 x2 x3 x4 _ _ p q)

/-- The region's arrays as it finds them, at their literal types. -/
abbrev meanArr (c : Dev nD) : Vec Ideal S100000x128 .f32 := V c main_v24
abbrev selfArr (c : Dev nD) : Vec Ideal S100000x128 .f32 := V c main_arg0
abbrev wlArr (c : Dev nD) : Vec Ideal S128x128 .f32 := V c main_v25
abbrev wrArr (c : Dev nD) : Vec Ideal S128x128 .f32 := V c main_v26
abbrev bArr (c : Dev nD) : Vec Ideal S1x128 .f32 := V c main_v27

/-- The whole-array function the result holds. -/
abbrev G (c : Dev nD) : Vec Ideal S100000x128 .f32 :=
  denseT relu (meanArr V c) (selfArr V c) (wlArr V c) (wrArr V c) (bArr V c)

/-- The printed index maps over the grid: the feature blocks and the result block are block t of the rows; the
    weights and the bias are block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Where a block's element sits in its array: block index times block size plus the coordinate inside. -/
theorem emb0 (t : Fin cfg0.N) (p : Fin 5000) (k : Fin 128) :
    ((cfg0.win 0).blk t).view.emb (ix2 p k) = ix2 (n0 := 100000) (n1 := 128) ⟨t.val * 5000 + p.val, by have := t.isLt; have : cfg0.N = 20 := rfl; omega⟩ k := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega
theorem emb1 (t : Fin cfg0.N) (p : Fin 5000) (k : Fin 128) :
    ((cfg0.win 1).blk t).view.emb (ix2 p k) = ix2 (n0 := 100000) (n1 := 128) ⟨t.val * 5000 + p.val, by have := t.isLt; have : cfg0.N = 20 := rfl; omega⟩ k := by
  obtain ⟨-, -, e0, e1, -⟩ := idx_facts t
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega
theorem emb2 (t : Fin cfg0.N) (k : Fin 128) (q : Fin 128) :
    ((cfg0.win 2).blk t).view.emb (ix2 k q) = ix2 (n0 := 128) (n1 := 128) k q := by
  obtain ⟨-, -, -, -, e0, e1, -⟩ := idx_facts t
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega
theorem emb3 (t : Fin cfg0.N) (k : Fin 128) (q : Fin 128) :
    ((cfg0.win 3).blk t).view.emb (ix2 k q) = ix2 (n0 := 128) (n1 := 128) k q := by
  obtain ⟨-, -, -, -, -, -, e0, e1, -⟩ := idx_facts t
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega
theorem emb4 (t : Fin cfg0.N) (z : Fin 1) (q : Fin 128) :
    ((cfg0.win 4).blk t).view.emb (ix2 z q) = ix2 (n0 := 1) (n1 := 128) (0 : Fin 1) q := by
  obtain ⟨-, -, -, -, -, -, -, -, e0, e1, -⟩ := idx_facts t
  funext a; apply Fin.ext
  match a with
  | ⟨0, _⟩ => show win0_4.index t (0 : Fin 2) * 1 + 1 * z.val = 0; rw [e0]; have := z.isLt; omega
  | ⟨1, _⟩ => show win0_4.index t (1 : Fin 2) * 128 + 1 * q.val = q.val; rw [e1]; omega
theorem emb5 (t : Fin cfg0.N) (p : Fin 5000) (q : Fin 128) :
    ((cfg0.win 5).blk t).view.emb (ix2 p q) = ix2 (n0 := 100000) (n1 := 128) ⟨t.val * 5000 + p.val, by have := t.isLt; have : cfg0.N = 20 := rfl; omega⟩ q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- WHAT POINT t WRITES BACK is block t of the whole-array function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 3 t) (iblk0 V c 4 t) p q).trans ?_
  show _ = G V c (((cfg0.win 5).blk t).view.emb (ix2 p q))
  rw [emb5 t p q]
  show _ = relu ((∑ k : Fin 128, meanArr V c (ix2 _ k) * wlArr V c (ix2 k q) + ∑ k : Fin 128, selfArr V c (ix2 _ k) * wrArr V c (ix2 k q)) + bArr V c (ix2 (0 : Fin 1) q))
  have h0 : ∀ k : Fin 128, iblk0 V c 0 t (ix2 p k) = meanArr V c (ix2 ⟨t.val * 5000 + p.val, by have := t.isLt; have : cfg0.N = 20 := rfl; omega⟩ k) := fun k =>
    congrArg (V c main_v24) (emb0 t p k)
  have h1 : ∀ k : Fin 128, iblk0 V c 1 t (ix2 p k) = selfArr V c (ix2 ⟨t.val * 5000 + p.val, by have := t.isLt; have : cfg0.N = 20 := rfl; omega⟩ k) := fun k =>
    congrArg (V c main_arg0) (emb1 t p k)
  have h2 : ∀ k : Fin 128, iblk0 V c 2 t (ix2 k q) = wlArr V c (ix2 k q) := fun k => congrArg (V c main_v25) (emb2 t k q)
  have h3 : ∀ k : Fin 128, iblk0 V c 3 t (ix2 k q) = wrArr V c (ix2 k q) := fun k => congrArg (V c main_v26) (emb3 t k q)
  have h4 : iblk0 V c 4 t (ix2 (0 : Fin 1) q) = bArr V c (ix2 (0 : Fin 1) q) := congrArg (V c main_v27) (emb4 t 0 q)
  simp only [h0, h1, h2, h3, h4]

/-- An index of the result array is in point t's block iff its row is among the block's 5000 rows. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The 20 blocks of rows tile the result array: row r is in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by have : cfg0.N = 20 := rfl; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- THE RESULT ARRAY after the region: the dense step, in its block form, of the arrays the region was entered with. -/
theorem final (c : Dev nD) : (dat0 V c).arrAt 5 cfg0.N = G V c :=
  (dat0 V c).arrAt_eq_of_cover 5 (G V c) (fun t _ => flushed_eq V c t) (cover)

end Cert.Sage.KRegion0

end
-- ==== Proof.KRegion1.lean ====
/-
  Region 1: what its result array holds when it ends, as one function of the arrays it is entered with.

  The grid has 20 points. Point t reads rows 5000 t .. 5000 t + 4999 of the two feature arrays and the whole of
  the two transposed weight matrices and of the bias row, and writes back the same rows of the result: the two
  blocks of rows times the weights, added, plus the bias row, positive part. A row of the result depends only on the same row
  of the two feature arrays, so every block is the block of ONE whole-array function, and the 20 blocks tile the rows.
-/
import proofs.«121698_j35639638622842_1_alg».proof.Proof.Gen.KernelIdeal.Frame
import proofs.«121698_j35639638622842_1_alg».proof.Proof.Dense
import Idealize.ShloMosaic.Lib.Pipeline.Value

set_option maxRecDepth 16384

noncomputable section

namespace Cert.Sage.KRegion1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block the body stores, at (p, q): the two products of the blocks of rows with the transposed weights, added,
    plus the bias row's entry, positive part. -/
theorem pay_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q) = relu ((∑ k : Fin 128, x0 (ix2 p k) * x2 (ix2 k q) + ∑ k : Fin 128, x1 (ix2 p k) * x3 (ix2 k q)) + x4 (ix2 (0 : Fin 1) q)) := by
  unfold k1_pay1
  simp only [shapeCast_self]
  show max _ (Ideal.ofBits .f32 0x00000000#32) = _
  rw [Ideal.ofBits_zero_f32]
  exact congrArg (max · 0) (block_apply _ rfl x0 x1 x2 x3 x4 _ _ p q)

/-- The region's arrays as it finds them, at their literal types. -/
abbrev meanArr (c : Dev nD) : Vec Ideal S100000x128 .f32 := V c main_v53
abbrev selfArr (c : Dev nD) : Vec Ideal S100000x128 .f32 := V c main_v28
abbrev wlArr (c : Dev nD) : Vec Ideal S128x128 .f32 := V c main_v54
abbrev wrArr (c : Dev nD) : Vec Ideal S128x128 .f32 := V c main_v55
abbrev bArr (c : Dev nD) : Vec Ideal S1x128 .f32 := V c main_v56

/-- The whole-array function the result holds. -/
abbrev G (c : Dev nD) : Vec Ideal S100000x128 .f32 :=
  denseT relu (meanArr V c) (selfArr V c) (wlArr V c) (wrArr V c) (bArr V c)

/-- The printed index maps over the grid: the feature blocks and the result block are block t of the rows; the
    weights and the bias are block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Where a block's element sits in its array: block index times block size plus the coordinate inside. -/
theorem emb0 (t : Fin cfg1.N) (p : Fin 5000) (k : Fin 128) :
    ((cfg1.win 0).blk t).view.emb (ix2 p k) = ix2 (n0 := 100000) (n1 := 128) ⟨t.val * 5000 + p.val, by have := t.isLt; have : cfg1.N = 20 := rfl; omega⟩ k := by
  obtain ⟨e0, e1, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega
theorem emb1 (t : Fin cfg1.N) (p : Fin 5000) (k : Fin 128) :
    ((cfg1.win 1).blk t).view.emb (ix2 p k) = ix2 (n0 := 100000) (n1 := 128) ⟨t.val * 5000 + p.val, by have := t.isLt; have : cfg1.N = 20 := rfl; omega⟩ k := by
  obtain ⟨-, -, e0, e1, -⟩ := idx_facts t
  funext a; apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega
theorem emb2 (t : Fin cfg1.N) (k : Fin 128) (q : Fin 128) :
    ((cfg1.win 2).blk t).view.emb (ix2 k q) = ix2 (n0 := 128) (n1 := 128) k q := by
  obtain ⟨-, -, -, -, e0, e1, -⟩ := idx_facts t
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega
theorem emb3 (t : Fin cfg1.N) (k : Fin 128) (q : Fin 128) :
    ((cfg1.win 3).blk t).view.emb (ix2 k q) = ix2 (n0 := 128) (n1 := 128) k q := by
  obtain ⟨-, -, -, -, -, -, e0, e1, -⟩ := idx_facts t
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega
theorem emb4 (t : Fin cfg1.N) (z : Fin 1) (q : Fin 128) :
    ((cfg1.win 4).blk t).view.emb (ix2 z q) = ix2 (n0 := 1) (n1 := 128) (0 : Fin 1) q := by
  obtain ⟨-, -, -, -, -, -, -, -, e0, e1, -⟩ := idx_facts t
  funext a; apply Fin.ext
  match a with
  | ⟨0, _⟩ => show win1_4.index t (0 : Fin 2) * 1 + 1 * z.val = 0; rw [e0]; have := z.isLt; omega
  | ⟨1, _⟩ => show win1_4.index t (1 : Fin 2) * 128 + 1 * q.val = q.val; rw [e1]; omega
theorem emb5 (t : Fin cfg1.N) (p : Fin 5000) (q : Fin 128) :
    ((cfg1.win 5).blk t).view.emb (ix2 p q) = ix2 (n0 := 100000) (n1 := 128) ⟨t.val * 5000 + p.val, by have := t.isLt; have : cfg1.N = 20 := rfl; omega⟩ q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- WHAT POINT t WRITES BACK is block t of the whole-array function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) (iblk1 V c 4 t) p q).trans ?_
  show _ = G V c (((cfg1.win 5).blk t).view.emb (ix2 p q))
  rw [emb5 t p q]
  show _ = relu ((∑ k : Fin 128, meanArr V c (ix2 _ k) * wlArr V c (ix2 k q) + ∑ k : Fin 128, selfArr V c (ix2 _ k) * wrArr V c (ix2 k q)) + bArr V c (ix2 (0 : Fin 1) q))
  have h0 : ∀ k : Fin 128, iblk1 V c 0 t (ix2 p k) = meanArr V c (ix2 ⟨t.val * 5000 + p.val, by have := t.isLt; have : cfg1.N = 20 := rfl; omega⟩ k) := fun k =>
    congrArg (V c main_v53) (emb0 t p k)
  have h1 : ∀ k : Fin 128, iblk1 V c 1 t (ix2 p k) = selfArr V c (ix2 ⟨t.val * 5000 + p.val, by have := t.isLt; have : cfg1.N = 20 := rfl; omega⟩ k) := fun k =>
    congrArg (V c main_v28) (emb1 t p k)
  have h2 : ∀ k : Fin 128, iblk1 V c 2 t (ix2 k q) = wlArr V c (ix2 k q) := fun k => congrArg (V c main_v54) (emb2 t k q)
  have h3 : ∀ k : Fin 128, iblk1 V c 3 t (ix2 k q) = wrArr V c (ix2 k q) := fun k => congrArg (V c main_v55) (emb3 t k q)
  have h4 : iblk1 V c 4 t (ix2 (0 : Fin 1) q) = bArr V c (ix2 (0 : Fin 1) q) := congrArg (V c main_v56) (emb4 t 0 q)
  simp only [h0, h1, h2, h3, h4]

/-- An index of the result array is in point t's block iff its row is among the block's 5000 rows. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v57).slice (win1_5.rect t)).set ↔ _
  rw [View.set_slice_whole, Rect.mem_set_unit]
  exact Iff.rfl

/-- The 20 blocks of rows tile the result array: row r is in the block of point r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by have : cfg1.N = 20 := rfl; omega⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e1]; omega

/-- THE RESULT ARRAY after the region: the dense step, in its block form, of the arrays the region was entered with. -/
theorem final (c : Dev nD) : (dat1 V c).arrAt 5 cfg1.N = G V c :=
  (dat1 V c).arrAt_eq_of_cover 5 (G V c) (fun t _ => flushed_eq V c t) (cover)

end Cert.Sage.KRegion1

end
-- ==== Proof.KRegion2.lean ====
/-
  Region 2: what its result array holds when it ends, as one function of the arrays it is entered with.

  The grid has 20 points. Point t reads rows 5000 t .. 5000 t + 4999 of the two feature arrays and the whole of
  the two transposed weight matrices and of the bias row, and writes back the same rows of the result: the two
  blocks of rows times the weights, added, plus the bias row. A row of the result depends only on the same row
  of the two feature arrays, so every block is the block of ONE whole-array function, and the 20 blocks tile the rows.
-/
import proofs.«121698_j35639638622842_1_alg».proof.Proof.Gen.KernelIdeal.Frame
import proofs.«121698_j35639638622842_1_alg».proof.Proof.Dense
import Idealize.ShloMosaic.Lib.Pipeline.Value

set_option maxRecDepth 16384

noncomputable section

namespace Cert.Sage.KRegion2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block the body stores, at (p, q): the two products of the blocks of rows with the transposed weights, added,
    plus the bias row's entry. -/
theorem pay_apply (x0 x1 : Vec Ideal S5000x128 .f32) (x2 x3 : Vec Ideal S128x64 .f32) (x4 : Vec Ideal S1x64 .f32)
    (p : Fin 5000) (q : Fin 64) :
    k2_pay1 x0 x1 x2 x3 x4 (ix2 p q) = id ((∑ k : Fin 128, x0 (ix2 p k) * x2 (ix2 k q) + ∑ k : Fin 128, x1 (ix2 p k) * x3 (ix2 k q)) + x4 (ix2 (0 : Fin 1) q)) := by
  unfold k2_pay1
  simp only [shapeCast_self]
  exact block_apply _ rfl x0 x1 x2 x3 x4 _ _ p q

/-- The region's arrays as it finds them, at their literal types. -/
abbrev meanArr (c : Dev nD) : Vec Ideal S100000x128 .f32 := V c main_v82
abbrev selfArr (c : Dev nD) : Vec Ideal S100000x128 .f32 := V c main_v57
abbrev wlArr (c : Dev nD) : Vec Ideal S128x64 .f32 := V c main_v83
abbrev wrArr (c : Dev nD) : Vec Ideal S128x64 .f32 := V c main_v84
abbrev bArr (c : Dev nD) : Vec Ideal S1x64 .f32 := V c main_v85

/-- The whole-array function the result holds. -/
abbrev G (c : Dev nD) : Vec Ideal S100000x64 .f32 :=
  denseT id (meanArr V c) (selfArr V c) (wlArr V c) (wrArr V c) (bArr V c)

/-- The printed index maps over the grid: the feature blocks and the result block are block t of the rows; the
    weights and the bias are block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Where a block's element sits in its array: block index times block size plus the coordinate inside. -/
theorem emb0 (t : Fin cfg2.N) (p : Fin 5000) (k : Fin 128) :
    ((cfg2.win 0).blk t).view.emb (ix2 p k) = ix2 (n0 := 100000) (n1 := 128) ⟨t.val * 5000 + p.val, by have := t.isLt; have : cfg2.N = 20 := rfl; omega⟩ k := by
  obtain ⟨e0, e1, -⟩ := idx_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega
theorem emb1 (t : Fin cfg2.N) (p : Fin 5000) (k : Fin 128) :
    ((cfg2.win 1).blk t).view.emb (ix2 p k) = ix2 (n0 := 100000) (n1 := 128) ⟨t.val * 5000 + p.val, by have := t.isLt; have : cfg2.N = 20 := rfl; omega⟩ k := by
  obtain ⟨-, -, e0, e1, -⟩ := idx_facts t
  funext a; apply Fin.ext
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega
theorem emb2 (t : Fin cfg2.N) (k : Fin 128) (q : Fin 64) :
    ((cfg2.win 2).blk t).view.emb (ix2 k q) = ix2 (n0 := 128) (n1 := 64) k q := by
  obtain ⟨-, -, -, -, e0, e1, -⟩ := idx_facts t
  funext a; apply Fin.ext
  match a with
  | ⟨0, _⟩ => show win2_2.index t (0 : Fin 2) * 128 + 1 * k.val = k.val; rw [e0]; omega
  | ⟨1, _⟩ => show win2_2.index t (1 : Fin 2) * 64 + 1 * q.val = q.val; rw [e1]; omega
theorem emb3 (t : Fin cfg2.N) (k : Fin 128) (q : Fin 64) :
    ((cfg2.win 3).blk t).view.emb (ix2 k q) = ix2 (n0 := 128) (n1 := 64) k q := by
  obtain ⟨-, -, -, -, -, -, e0, e1, -⟩ := idx_facts t
  funext a; apply Fin.ext
  match a with
  | ⟨0, _⟩ => show win2_3.index t (0 : Fin 2) * 128 + 1 * k.val = k.val; rw [e0]; omega
  | ⟨1, _⟩ => show win2_3.index t (1 : Fin 2) * 64 + 1 * q.val = q.val; rw [e1]; omega
theorem emb4 (t : Fin cfg2.N) (z : Fin 1) (q : Fin 64) :
    ((cfg2.win 4).blk t).view.emb (ix2 z q) = ix2 (n0 := 1) (n1 := 64) (0 : Fin 1) q := by
  obtain ⟨-, -, -, -, -, -, -, -, e0, e1, -⟩ := idx_facts t
  funext a; apply Fin.ext
  match a with
  | ⟨0, _⟩ => show win2_4.index t (0 : Fin 2) * 1 + 1 * z.val = 0; rw [e0]; have := z.isLt; omega
  | ⟨1, _⟩ => show win2_4.index t (1 : Fin 2) * 64 + 1 * q.val = q.val; rw [e1]; omega
theorem emb5 (t : Fin cfg2.N) (p : Fin 5000) (q : Fin 64) :
    ((cfg2.win 5).blk t).view.emb (ix2 p q) = ix2 (n0 := 100000) (n1 := 64) ⟨t.val * 5000 + p.val, by have := t.isLt; have : cfg2.N = 20 := rfl; omega⟩ q := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; rw [e0]; omega
  | ⟨1, _⟩ => show win2_5.index t (1 : Fin 2) * 64 + 1 * q.val = q.val; rw [e1]; omega

/-- WHAT POINT t WRITES BACK is block t of the whole-array function. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  refine (pay_apply (iblk2 V c 0 t) (iblk2 V c 1 t) (iblk2 V c 2 t) (iblk2 V c 3 t) (iblk2 V c 4 t) p q).trans ?_
  show _ = G V c (((cfg2.win 5).blk t).view.emb (ix2 p q))
  rw [emb5 t p q]
  show _ = id ((∑ k : Fin 128, meanArr V c (ix2 _ k) * wlArr V c (ix2 k q) + ∑ k : Fin 128, selfArr V c (ix2 _ k) * wrArr V c (ix2 k q)) + bArr V c (ix2 (0 : Fin 1) q))
  have h0 : ∀ k : Fin 128, iblk2 V c 0 t (ix2 p k) = meanArr V c (ix2 ⟨t.val * 5000 + p.val, by have := t.isLt; have : cfg2.N = 20 := rfl; omega⟩ k) := fun k =>
    congrArg (V c main_v82) (emb0 t p k)
  have h1 : ∀ k : Fin 128, iblk2 V c 1 t (ix2 p k) = selfArr V c (ix2 ⟨t.val * 5000 + p.val, by have := t.isLt; have : cfg2.N = 20 := rfl; omega⟩ k) := fun k =>
    congrArg (V c main_v57) (emb1 t p k)
  have h2 : ∀ k : Fin 128, iblk2 V c 2 t (ix2 k q) = wlArr V c (ix2 k q) := fun k => congrArg (V c main_v83) (emb2 t k q)
  have h3 : ∀ k : Fin 128, iblk2 V c 3 t (ix2 k q) = wrArr V c (ix2 k q) := fun k => congrArg (V c main_v84) (emb3 t k q)
  have h4 : iblk2 V c 4 t (ix2 (0 : Fin 1) q) = bArr V c (ix2 (0 : Fin 1) q) := congrArg (V c main_v85) (emb4 t 0 q)
  simp only [h0, h1, h2, h3, h4]

/-- An index of the result array is in point t's block iff its row is among the block's 5000 rows. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v86).slice (win2_5.rect t)).set ↔ _
  rw [View.set_slice_whole, Rect.mem_set_unit]
  exact Iff.rfl

/-- The 20 blocks of rows tile the result array: row r is in the block of point r / 5000. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by have : cfg2.N = 20 := rfl; omega⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0]; show (i 0).val / 5000 * 5000 ≤ (i 0).val ∧ (i 0).val < (i 0).val / 5000 * 5000 + 5000; omega
  | ⟨1, _⟩ =>
    show win2_5.index t (1 : Fin 2) * 64 ≤ (i 1).val ∧ (i 1).val < win2_5.index t (1 : Fin 2) * 64 + 64
    rw [e1]; omega

/-- THE RESULT ARRAY after the region: the dense step, in its block form, of the arrays the region was entered with. -/
theorem final (c : Dev nD) : (dat2 V c).arrAt 5 cfg2.N = G V c :=
  (dat2 V c).arrAt_eq_of_cover 5 (G V c) (fun t _ => flushed_eq V c t) (cover)

end Cert.Sage.KRegion2

end
-- ==== Proof.Net.lean ====
/-
  The three-layer network as one function of the eleven argument arrays: each layer is the dense step of the mean
  over incoming edges of its input, its input, its two weight matrices and its bias; the first two layers take the
  positive part.
-/
import proofs.«121698_j35639638622842_1_alg».proof.Proof.Dense
import proofs.«121698_j35639638622842_1_alg».proof.Proof.Agg

noncomputable section

namespace Cert.Sage

open Idealize.ShloMosaic Cert.KernelIdeal

/-- Layer 0's output. -/
def net1 (x : Vec Ideal S100000x128 .f32) (e : IVec S3x2x625000 32) (Wl0 : Vec Ideal S128x128 .f32) (b0 : Vec Ideal S128 .f32)
    (Wr0 : Vec Ideal S128x128 .f32) : Vec Ideal S100000x128 .f32 :=
  dense relu (agg (F := Ideal) x (edges0 e)) x Wl0 Wr0 b0

/-- Layer 1's output. -/
def net2 (x : Vec Ideal S100000x128 .f32) (e : IVec S3x2x625000 32) (Wl0 : Vec Ideal S128x128 .f32) (b0 : Vec Ideal S128 .f32)
    (Wr0 Wl1 : Vec Ideal S128x128 .f32) (b1 : Vec Ideal S128 .f32) (Wr1 : Vec Ideal S128x128 .f32) : Vec Ideal S100000x128 .f32 :=
  dense relu (agg (F := Ideal) (net1 x e Wl0 b0 Wr0) (edges1 e)) (net1 x e Wl0 b0 Wr0) Wl1 Wr1 b1

/-- The network's output. -/
def net3 (x : Vec Ideal S100000x128 .f32) (e : IVec S3x2x625000 32) (Wl0 : Vec Ideal S128x128 .f32) (b0 : Vec Ideal S128 .f32)
    (Wr0 Wl1 : Vec Ideal S128x128 .f32) (b1 : Vec Ideal S128 .f32) (Wr1 : Vec Ideal S128x128 .f32)
    (Wl2 : Vec Ideal S64x128 .f32) (b2 : Vec Ideal S64 .f32) (Wr2 : Vec Ideal S64x128 .f32) : Vec Ideal S100000x64 .f32 :=
  dense id (agg (F := Ideal) (net2 x e Wl0 b0 Wr0 Wl1 b1 Wr1) (edges2 e)) (net2 x e Wl0 b0 Wr0 Wl1 b1 Wr1) Wl2 Wr2 b2

end Cert.Sage

end
-- ==== Proof.KValue.lean ====
/-
  The kernel program's result: region by region, each region's result array is the layer's output as a function of
  the launch contents of the arguments, and the run ends with the result buffer at the network's output.
-/
import proofs.«121698_j35639638622842_1_alg».proof.Proof.KRun
import proofs.«121698_j35639638622842_1_alg».proof.Proof.KHost
import proofs.«121698_j35639638622842_1_alg».proof.Proof.KRegion0
import proofs.«121698_j35639638622842_1_alg».proof.Proof.KRegion1
import proofs.«121698_j35639638622842_1_alg».proof.Proof.KRegion2
import proofs.«121698_j35639638622842_1_alg».proof.Proof.Net

set_option maxRecDepth 16384

noncomputable section

namespace Cert.Sage.KValue

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- Region 0 leaves layer 0's output in its result array. -/
theorem region0 (c : Dev nD) : (dat0 (V1 m ρ) c).arrAt 5 cfg0.N
    = net1 (m ((c : Thread nD τ).loc main_arg0)) (m ((c : Thread nD τ).loc main_arg1)) (m ((c : Thread nD τ).loc main_arg2)) (m ((c : Thread nD τ).loc main_arg3)) (m ((c : Thread nD τ).loc main_arg4)) := by
  rw [KRegion0.final (V1 m ρ) c]
  show denseT relu (V1 m ρ c main_v24) (V1 m ρ c main_arg0) (V1 m ρ c main_v25) (V1 m ρ c main_v26) (V1 m ρ c main_v27) = _
  rw [KHost.V1_mean, KHost.V1_self, KHost.V1_wl, KHost.V1_wr, KHost.V1_b]
  exact denseT_transpose relu _ _ _ _ _ _ _

/-- Region 1 leaves layer 1's output in its result array. -/
theorem region1 (c : Dev nD) : (dat1 (V3 m ρ) c).arrAt 5 cfg1.N
    = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KRegion1.final (V3 m ρ) c]
  show denseT relu (V3 m ρ c main_v53) (V3 m ρ c main_v28) (V3 m ρ c main_v54) (V3 m ρ c main_v55) (V3 m ρ c main_v56) = _
  rw [KHost.V3_mean, KHost.V3_self, KHost.V3_wl, KHost.V3_wr, KHost.V3_b]
  rw [KHost.W2_out, KHost.W2_arg1, KHost.W2_arg5, KHost.W2_arg6, KHost.W2_arg7, region0]
  exact denseT_transpose relu _ _ _ _ _ _ _

/-- Region 2 leaves the network's output in its result array. -/
theorem region2 (c : Dev nD) : (dat2 (V5 m ρ) c).arrAt 5 cfg2.N
    = net3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [KRegion2.final (V5 m ρ) c]
  show denseT id (V5 m ρ c main_v82) (V5 m ρ c main_v57) (V5 m ρ c main_v83) (V5 m ρ c main_v84) (V5 m ρ c main_v85) = _
  rw [KHost.V5_mean, KHost.V5_self, KHost.V5_wl, KHost.V5_wr, KHost.V5_b]
  rw [KHost.W4_out, KHost.W4_arg1, KHost.W4_arg8, KHost.W4_arg9, KHost.W4_arg10, region1]
  exact denseT_transpose id _ _ _ _ _ _ _

/-- THE RUN: every weakly fair execution terminates without a fault with the result buffer at the network's output
    of the launch contents of the arguments, and the arguments unchanged. -/
theorem run : θ_run defs (onTc (τ := τ) (main (F := Ideal))) ⟨m, fun _ => 0, ρ⟩ (fun r => ∀ c : Dev nD,
      r.2.mem ((c.tc : Thread nD τ).loc main_v86)
        = net3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans ((KHost.W6_out m ρ c).trans (region2 m ρ c)), (h c).2⟩)
    (KRun.run_named m ρ)

end Cert.Sage.KValue

end
-- ==== Proof.RLayer.lean ====
/-
  The reference, layer by layer: each layer's output is the dense step (Dense.lean) of the mean over incoming
  edges (Agg.lean) of the layer's input, the input itself, the layer's two weight matrices and its bias; the first
  two layers take the positive part.
-/
import proofs.«121698_j35639638622842_1_alg».proof.Proof.Gen.ReferenceIdeal.Read
import proofs.«121698_j35639638622842_1_alg».proof.Proof.Dense
import proofs.«121698_j35639638622842_1_alg».proof.Proof.Agg

noncomputable section

namespace Cert.Sage.Ref

open Idealize.ShloMosaic Idealize.ShloMosaic.ValueIdx Cert.ReferenceIdeal Cert.ReferenceIdeal.Read Cert.Sage

/-- The mean over incoming edges as layer 0 of the reference computes it is the shared chain applied to the
    input features and the first edge list: the two are the same operations on the same values. -/
theorem mean0 (x0 : (⟨S100000x128, .f32⟩ : BufTy).Contents (Elt Ideal)) (x1 : (⟨S3x2x625000, .i32⟩ : BufTy).Contents (Elt Ideal)) :
    val_main_v24 (F := Ideal) x0 x1 = agg (F := Ideal) x0 (edges0 x1) := by
  unfold val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_1 val_main_cst_2 val_main_cst_3
    val_main_c val_main_c_0
  unfold agg dstCol srcRow edges0
  rfl

/-- The mean over incoming edges as layer 1 of the reference computes it is the shared chain applied to layer 0's
    output and the second edge list. -/
theorem mean1 (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v58 (F := Ideal) x0 x1 x2 x3 x4 = agg (F := Ideal) (val_main_v33 (F := Ideal) x0 x1 x2 x3 x4) (edges1 x1) := by
  unfold val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v40
    val_main_v39 val_main_v38 val_main_v37 val_main_v36 val_main_v35 val_main_v34 val_main_cst_6 val_main_cst_7 val_main_cst_8 val_main_cst_9
    val_main_c_4 val_main_c_5
  generalize val_main_v33 (F := Ideal) x0 x1 x2 x3 x4 = h
  unfold agg dstCol srcRow edges1
  rfl

/-- The mean over incoming edges as layer 2 of the reference computes it is the shared chain applied to layer 1's
    output and the third edge list. -/
theorem mean2 (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v92 (F := Ideal) x0 x1 x2 x3 x4 x5 x6 x7 = agg (F := Ideal) (val_main_v67 (F := Ideal) x0 x1 x2 x3 x4 x5 x6 x7) (edges2 x1) := by
  unfold val_main_v92 val_main_v91 val_main_v90 val_main_v89 val_main_v88 val_main_v87 val_main_v86 val_main_v85 val_main_v84
    val_main_v83 val_main_v82 val_main_v81 val_main_v80 val_main_v79 val_main_v78 val_main_v77 val_main_v76 val_main_v75 val_main_v74
    val_main_v73 val_main_v72 val_main_v71 val_main_v70 val_main_v69 val_main_v68 val_main_cst_12 val_main_cst_13 val_main_cst_14 val_main_cst_15
    val_main_c_10 val_main_c_11
  generalize val_main_v67 (F := Ideal) x0 x1 x2 x3 x4 x5 x6 x7 = h
  unfold agg dstCol srcRow edges2
  rfl

/-- Row `p`, column `k` of the left operand of a product into entry `(p, q)`. -/
theorem lidx_eq (p : Fin 100000) (q k : Fin 128) : lidx_main_v26 (ix2 p q) k = ix2 p k :=
  funext fun a => Fin.ext (by match a with | ⟨0, _⟩ => rfl | ⟨1, _⟩ => rfl)

/-- The transposed weight at `(k, q)` is the weight at `(q, k)`. -/
theorem ridx_eq (p : Fin 100000) (q k : Fin 128) : idx_main_v25 (ridx_main_v26 (ix2 p q) k) = ix2 q k :=
  funext fun a => Fin.ext (by match a with | ⟨0, _⟩ => rfl | ⟨1, _⟩ => rfl)

/-- The bias broadcast down the rows, at `(p, q)`, is the bias at `q`. -/
theorem bidx_eq (p : Fin 100000) (q : Fin 128) : idx_main_v27 (idx_main_v28 (ix2 p q)) = ix1 q :=
  funext fun a => Fin.ext (by match a with | ⟨0, _⟩ => rfl)

/-- Row `p`, column `k` of the left operand of a product into entry `(p, q)` of the last layer. -/
theorem lidx_eq' (p : Fin 100000) (q : Fin 64) (k : Fin 128) : lidx_main_v94 (ix2 p q) k = ix2 p k :=
  funext fun a => Fin.ext (by match a with | ⟨0, _⟩ => rfl | ⟨1, _⟩ => rfl)

/-- The last layer's transposed weight at `(k, q)` is the weight at `(q, k)`. -/
theorem ridx_eq' (p : Fin 100000) (q : Fin 64) (k : Fin 128) : idx_main_v93 (ridx_main_v94 (ix2 p q) k) = ix2 q k :=
  funext fun a => Fin.ext (by match a with | ⟨0, _⟩ => rfl | ⟨1, _⟩ => rfl)

/-- The last layer's bias broadcast down the rows, at `(p, q)`, is the bias at `q`. -/
theorem bidx_eq' (p : Fin 100000) (q : Fin 64) : idx_main_v95 (idx_main_v96 (ix2 p q)) = ix1 q :=
  funext fun a => Fin.ext (by match a with | ⟨0, _⟩ => rfl)

/-- Layer 0 of the reference. -/
theorem ref_h1 (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v33 (F := Ideal) x0 x1 x2 x3 x4 = dense relu (agg (F := Ideal) x0 (edges0 x1)) x0 x2 x4 x3 := by
  funext i
  obtain ⟨p, q, rfl⟩ : ∃ (p : Fin 100000) (q : Fin 128), i = ix2 p q := ⟨i 0, i 1, eq_ix2 i⟩
  rw [dense_apply]
  rw [val_main_v33_apply, val_main_v32_apply, val_main_v29_apply, val_main_v26_apply, val_main_v31_apply, val_main_v28_apply,
    val_main_v27_apply, val_main_call0_v0_apply, val_main_call0_cst_apply]
  rw [mean0]
  generalize agg (F := Ideal) x0 (edges0 x1) = mean
  rw [bidx_eq, Ideal.maximumf_def, Ideal.addf_def, Ideal.addf_def, Ideal.ofBits_def, Ideal.ofBits_zero_f32, add_bias_comm]
  refine congrArg (max · 0) (congrArg₂ (· + ·) (congrArg₂ (· + ·) (Finset.sum_congr rfl fun k _ => ?_)
    (Finset.sum_congr rfl fun k _ => ?_)) rfl)
  · rw [val_main_v25_apply]
    exact congrArg₂ (fun a b => mean a * x2 b) (lidx_eq p q k) (ridx_eq p q k)
  · rw [val_main_v30_apply]
    exact congrArg₂ (fun a b => x0 a * x4 b) (lidx_eq p q k) (ridx_eq p q k)

/-- Layer 1 of the reference, over layer 0's output. -/
theorem ref_h2 (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v67 (F := Ideal) x0 x1 x2 x3 x4 x5 x6 x7
      = dense relu (agg (F := Ideal) (val_main_v33 (F := Ideal) x0 x1 x2 x3 x4) (edges1 x1)) (val_main_v33 (F := Ideal) x0 x1 x2 x3 x4) x5 x7 x6 := by
  funext i
  obtain ⟨p, q, rfl⟩ : ∃ (p : Fin 100000) (q : Fin 128), i = ix2 p q := ⟨i 0, i 1, eq_ix2 i⟩
  rw [dense_apply]
  rw [val_main_v67_apply, val_main_v66_apply, val_main_v63_apply, val_main_v60_apply, val_main_v65_apply, val_main_v62_apply,
    val_main_v61_apply, val_main_call1_v0_apply, val_main_call1_cst_apply]
  rw [mean1]
  generalize agg (F := Ideal) (val_main_v33 (F := Ideal) x0 x1 x2 x3 x4) (edges1 x1) = mean
  generalize val_main_v33 (F := Ideal) x0 x1 x2 x3 x4 = h
  rw [show idx_main_v61 (idx_main_v62 (ix2 p q)) = ix1 q from bidx_eq p q, Ideal.maximumf_def, Ideal.addf_def, Ideal.addf_def,
    Ideal.ofBits_def, Ideal.ofBits_zero_f32, add_bias_comm]
  refine congrArg (max · 0) (congrArg₂ (· + ·) (congrArg₂ (· + ·) (Finset.sum_congr rfl fun k _ => ?_)
    (Finset.sum_congr rfl fun k _ => ?_)) rfl)
  · rw [val_main_v59_apply]
    exact congrArg₂ (fun a b => mean a * x5 b) (lidx_eq p q k) (ridx_eq p q k)
  · rw [val_main_v64_apply]
    exact congrArg₂ (fun a b => h a * x7 b) (lidx_eq p q k) (ridx_eq p q k)

/-- Layer 2 of the reference, over layer 1's output; no activation. -/
theorem ref_out (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S64x128, .f32⟩ : BufTy).Contents (Elt Ideal))
    (x9 : (⟨S64, .f32⟩ : BufTy).Contents (Elt Ideal)) (x10 : (⟨S64x128, .f32⟩ : BufTy).Contents (Elt Ideal)) :
    val_main_v100 (F := Ideal) x0 x1 x2 x3 x4 x5 x6 x7 x8 x9 x10
      = dense id (agg (F := Ideal) (val_main_v67 (F := Ideal) x0 x1 x2 x3 x4 x5 x6 x7) (edges2 x1)) (val_main_v67 (F := Ideal) x0 x1 x2 x3 x4 x5 x6 x7) x8 x10 x9 := by
  funext i
  obtain ⟨p, q, rfl⟩ : ∃ (p : Fin 100000) (q : Fin 64), i = ix2 p q := ⟨i 0, i 1, eq_ix2 i⟩
  rw [dense_apply]
  rw [val_main_v100_apply, val_main_v97_apply, val_main_v94_apply, val_main_v99_apply, val_main_v96_apply, val_main_v95_apply]
  rw [mean2]
  generalize agg (F := Ideal) (val_main_v67 (F := Ideal) x0 x1 x2 x3 x4 x5 x6 x7) (edges2 x1) = mean
  generalize val_main_v67 (F := Ideal) x0 x1 x2 x3 x4 x5 x6 x7 = h
  rw [bidx_eq', Ideal.addf_def, Ideal.addf_def, add_bias_comm, id_eq]
  refine congrArg₂ (· + ·) (congrArg₂ (· + ·) (Finset.sum_congr rfl fun k _ => ?_)
    (Finset.sum_congr rfl fun k _ => ?_)) rfl
  · rw [val_main_v93_apply]
    exact congrArg₂ (fun a b => mean a * x8 b) (lidx_eq' p q k) (ridx_eq' p q k)
  · rw [val_main_v98_apply]
    exact congrArg₂ (fun a b => h a * x10 b) (lidx_eq' p q k) (ridx_eq' p q k)

end Cert.Sage.Ref

end
-- ==== Proof.RValue.lean ====
/-
  The reference's result is the network's output: its three layers (RLayer.lean) composed.
-/
import proofs.«121698_j35639638622842_1_alg».proof.Proof.RLayer
import proofs.«121698_j35639638622842_1_alg».proof.Proof.Net

noncomputable section

namespace Cert.Sage.Ref

open Idealize.ShloMosaic Cert.ReferenceIdeal Cert.ReferenceIdeal.Read Cert.Sage

/-- The reference's last stage, as a function of the eleven arguments, is the network of Net.lean. -/
theorem ref_net (x0 : (⟨S100000x128, .f32⟩ : BufTy).Contents (Elt Ideal)) (x1 : (⟨S3x2x625000, .i32⟩ : BufTy).Contents (Elt Ideal))
    (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) :
    val_main_v100 (F := Ideal) x0 x1 x2 x3 x4 x5 x6 x7 x8 x9 x10 = net3 x0 x1 x2 x3 x4 x5 x6 x7 x8 x9 x10 := by
  rw [ref_out, ref_h2, ref_h1]
  rfl

end Cert.Sage.Ref

end
-- ==== Proof.lean ====
/-
  The certificate of a three-layer graph convolution (mean aggregation, two linear maps and a bias per layer, the
  positive part after the first two layers).

  Both programs compute each layer's mean over incoming edges by the same host operations, carried as one function
  (Agg.lean). The kernel program then runs one pipelined region per layer: 20 blocks of 5000 rows, each block
  multiplied by the two transposed weight matrices, the products added and the bias row added last (KRegion0-2,
  over the blocks' whole-array function of Dense.lean). The reference multiplies whole arrays and adds the bias
  between the two products (RLayer.lean). Over the extended reals the two orders of addition agree with no side
  condition, so the precondition is never opened. The frames are the generated ones; the ideal pass changed nothing,
  so there is nothing to preserve.
-/
import proofs.«121698_j35639638622842_1_alg».proof.Defs
import proofs.«121698_j35639638622842_1_alg».proof.Proof.Gen.Kernel
import proofs.«121698_j35639638622842_1_alg».proof.Proof.Gen.Kernel.Skeleton
import proofs.«121698_j35639638622842_1_alg».proof.Proof.Gen.Kernel.Launch
import proofs.«121698_j35639638622842_1_alg».proof.Proof.Gen.Kernel.Points
import proofs.«121698_j35639638622842_1_alg».proof.Proof.Gen.Kernel.Frame
import proofs.«121698_j35639638622842_1_alg».proof.Proof.Gen.KernelIdeal
import proofs.«121698_j35639638622842_1_alg».proof.Proof.Gen.KernelIdeal.Skeleton
import proofs.«121698_j35639638622842_1_alg».proof.Proof.Gen.KernelIdeal.Launch
import proofs.«121698_j35639638622842_1_alg».proof.Proof.Gen.KernelIdeal.Points
import proofs.«121698_j35639638622842_1_alg».proof.Proof.Gen.KernelIdeal.Frame
import proofs.«121698_j35639638622842_1_alg».proof.Proof.Gen.ReferenceIdeal
import proofs.«121698_j35639638622842_1_alg».proof.Proof.Gen.ReferenceIdeal.Run
import proofs.«121698_j35639638622842_1_alg».proof.Proof.Gen.ReferenceIdeal.Read
import proofs.«121698_j35639638622842_1_alg».proof.Proof.Gen.Pre_finite_inputs
import proofs.«121698_j35639638622842_1_alg».proof.Proof.KValue
import proofs.«121698_j35639638622842_1_alg».proof.Proof.RValue
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the network's output of those arguments. -/
theorem algebraic : Cert.algebraic_KernelIdeal_ReferenceIdeal := by
  intro m ρ m' ρ' _ hagree
  refine ⟨_, Cert.Sage.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v100_eq, a0, a1, a2, a3, a4, a5, a6, a7, a8, a9, a10]
  exact Cert.Sage.Ref.ref_net _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
